-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S64x64x3x3 : Shape := ⟨4, ![64, 64, 3, 3]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S8x64x64x64 .f32) (main_arg1 : FVec F S64x64x3x3 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S8x64x64x64 : Shape := ⟨4, ![8, 64, 64, 64]⟩
abbrev S64x64x3x3 : Shape := ⟨4, ![64, 64, 3, 3]⟩
abbrev S_ : Shape := ⟨0, ![]⟩
abbrev S8x64x66x66 : Shape := ⟨4, ![8, 64, 66, 66]⟩
abbrev S1x64x66x66 : Shape := ⟨4, ![1, 64, 66, 66]⟩
abbrev S1x64x64x64 : Shape := ⟨4, ![1, 64, 64, 64]⟩
abbrev S64x66x66 : Shape := ⟨3, ![64, 66, 66]⟩
abbrev S64x8x64 : Shape := ⟨3, ![64, 8, 64]⟩
abbrev S64x64x1x1 : Shape := ⟨4, ![64, 64, 1, 1]⟩
abbrev S64x64 : Shape := ⟨2, ![64, 64]⟩
abbrev S1x64x8x64 : Shape := ⟨4, ![1, 64, 8, 64]⟩
abbrev S64x64x8x64 : Shape := ⟨4, ![64, 64, 8, 64]⟩

abbrev nBuf : Space → Nat
  | .hbm => 6
  | .vmem => 5
  | .smem => 0
  | _ => 0

abbrev bufTy : (tb : Table) → Fin (tcTables nBuf tb) → BufTy
  | .hbm, ⟨0, _⟩ => ⟨S8x64x64x64, .f32⟩
  | .hbm, ⟨1, _⟩ => ⟨S64x64x3x3, .f32⟩
  | .hbm, ⟨2, _⟩ => ⟨S_, .f32⟩
  | .hbm, ⟨3, _⟩ => ⟨S_, .f32⟩
  | .hbm, ⟨4, _⟩ => ⟨S8x64x66x66, .f32⟩
  | .hbm, ⟨5, _⟩ => ⟨S8x64x64x64, .f32⟩
  | .local _ .vmem, ⟨0, _⟩ => ⟨S1x64x66x66, .f32⟩
  | .local _ .vmem, ⟨1, _⟩ => ⟨S1x64x66x66, .f32⟩
  | .local _ .vmem, ⟨2, _⟩ => ⟨S64x64x3x3, .f32⟩
  | .local _ .vmem, ⟨3, _⟩ => ⟨S1x64x64x64, .f32⟩
  | .local _ .vmem, ⟨4, _⟩ => ⟨S1x64x64x64, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x66x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x64x64x64_S8x64x66x66_000_000_110_110 : S8x64x64x64.Pads (![0, 0, 1, 1] : Fin 4 → Nat) ![0, 0, 1, 1] ![0, 0, 0, 0] S8x64x66x66
  h_S_ : 0 < S_.numel
  inb_S1x64x66x66_S1x64x66x66_0_0_0_0 : ∀ a, (![0, 0, 0, 0] : Fin 4 → Nat) a + S1x64x66x66.size a ≤ S1x64x66x66.size a
  h_S1x64x66x66 : 0 < S1x64x66x66.numel
  shapeCasts_S1x64x66x66_S64x66x66 : S1x64x66x66.ShapeCasts S64x66x66
  inb_S64x64x3x3_S64x64x3x3_0_0_0_0 : ∀ a, (![0, 0, 0, 0] : Fin 4 → Nat) a + S64x64x3x3.size a ≤ S64x64x3x3.size a
  h_S64x64x3x3 : 0 < S64x64x3x3.numel
  slices_S64x66x66_o0_0_0_S64x8x64 : S64x66x66.Slices ![0, 0, 0] S64x8x64
  slices_S64x64x3x3_o0_0_0_0_S64x64x1x1 : S64x64x3x3.Slices ![0, 0, 0, 0] S64x64x1x1
  shapeCasts_S64x64x1x1_S64x64 : S64x64x1x1.ShapeCasts S64x64
  shapeCasts_S64x8x64_S1x64x8x64 : S64x8x64.ShapeCasts S1x64x8x64
  shapeCasts_S64x64_S64x64x1x1 : S64x64.ShapeCasts S64x64x1x1
  broadcasts_S1x64x8x64_S64x64x8x64 : S1x64x8x64.Broadcasts S64x64x8x64
  broadcasts_S64x64x1x1_S64x64x8x64 : S64x64x1x1.Broadcasts S64x64x8x64
  reduces_S64x64x8x64_S64x8x64 : S64x64x8x64.Reduces [1] S64x8x64
  slices_S64x66x66_o0_0_1_S64x8x64 : S64x66x66.Slices ![0, 0, 1] S64x8x64
  slices_S64x64x3x3_o0_0_0_1_S64x64x1x1 : S64x64x3x3.Slices ![0, 0, 0, 1] S64x64x1x1
  slices_S64x66x66_o0_0_2_S64x8x64 : S64x66x66.Slices ![0, 0, 2] S64x8x64
  slices_S64x64x3x3_o0_0_0_2_S64x64x1x1 : S64x64x3x3.Slices ![0, 0, 0, 2] S64x64x1x1
  slices_S64x66x66_o0_1_0_S64x8x64 : S64x66x66.Slices ![0, 1, 0] S64x8x64
  slices_S64x64x3x3_o0_0_1_0_S64x64x1x1 : S64x64x3x3.Slices ![0, 0, 1, 0] S64x64x1x1
  slices_S64x66x66_o0_1_1_S64x8x64 : S64x66x66.Slices ![0, 1, 1] S64x8x64
  slices_S64x64x3x3_o0_0_1_1_S64x64x1x1 : S64x64x3x3.Slices ![0, 0, 1, 1] S64x64x1x1
  slices_S64x66x66_o0_1_2_S64x8x64 : S64x66x66.Slices ![0, 1, 2] S64x8x64
  slices_S64x64x3x3_o0_0_1_2_S64x64x1x1 : S64x64x3x3.Slices ![0, 0, 1, 2] S64x64x1x1
  slices_S64x66x66_o0_2_0_S64x8x64 : S64x66x66.Slices ![0, 2, 0] S64x8x64
  slices_S64x64x3x3_o0_0_2_0_S64x64x1x1 : S64x64x3x3.Slices ![0, 0, 2, 0] S64x64x1x1
  slices_S64x66x66_o0_2_1_S64x8x64 : S64x66x66.Slices ![0, 2, 1] S64x8x64
  slices_S64x64x3x3_o0_0_2_1_S64x64x1x1 : S64x64x3x3.Slices ![0, 0, 2, 1] S64x64x1x1
  slices_S64x66x66_o0_2_2_S64x8x64 : S64x66x66.Slices ![0, 2, 2] S64x8x64
  slices_S64x64x3x3_o0_0_2_2_S64x64x1x1 : S64x64x3x3.Slices ![0, 0, 2, 2] S64x64x1x1
  inb_S1x64x64x64_S1x64x8x64_0_0_0_0 : ∀ a, (![0, 0, 0, 0] : Fin 4 → Nat) a + S1x64x8x64.size a ≤ S1x64x64x64.size a
  h_S1x64x8x64 : 0 < S1x64x8x64.numel
  shapeCasts_S1x64x8x64_S64x8x64 : S1x64x8x64.ShapeCasts S64x8x64
  slices_S64x66x66_o0_8_0_S64x8x64 : S64x66x66.Slices ![0, 8, 0] S64x8x64
  slices_S64x66x66_o0_8_1_S64x8x64 : S64x66x66.Slices ![0, 8, 1] S64x8x64
  slices_S64x66x66_o0_8_2_S64x8x64 : S64x66x66.Slices ![0, 8, 2] S64x8x64
  slices_S64x66x66_o0_9_0_S64x8x64 : S64x66x66.Slices ![0, 9, 0] S64x8x64
  slices_S64x66x66_o0_9_1_S64x8x64 : S64x66x66.Slices ![0, 9, 1] S64x8x64
  slices_S64x66x66_o0_9_2_S64x8x64 : S64x66x66.Slices ![0, 9, 2] S64x8x64
  slices_S64x66x66_o0_10_0_S64x8x64 : S64x66x66.Slices ![0, 10, 0] S64x8x64
  slices_S64x66x66_o0_10_1_S64x8x64 : S64x66x66.Slices ![0, 10, 1] S64x8x64
  slices_S64x66x66_o0_10_2_S64x8x64 : S64x66x66.Slices ![0, 10, 2] S64x8x64
  inb_S1x64x64x64_S1x64x8x64_0_0_8_0 : ∀ a, (![0, 0, 8, 0] : Fin 4 → Nat) a + S1x64x8x64.size a ≤ S1x64x64x64.size a
  slices_S64x66x66_o0_16_0_S64x8x64 : S64x66x66.Slices ![0, 16, 0] S64x8x64
  slices_S64x66x66_o0_16_1_S64x8x64 : S64x66x66.Slices ![0, 16, 1] S64x8x64
  slices_S64x66x66_o0_16_2_S64x8x64 : S64x66x66.Slices ![0, 16, 2] S64x8x64
  slices_S64x66x66_o0_17_0_S64x8x64 : S64x66x66.Slices ![0, 17, 0] S64x8x64
  slices_S64x66x66_o0_17_1_S64x8x64 : S64x66x66.Slices ![0, 17, 1] S64x8x64
  slices_S64x66x66_o0_17_2_S64x8x64 : S64x66x66.Slices ![0, 17, 2] S64x8x64
  slices_S64x66x66_o0_18_0_S64x8x64 : S64x66x66.Slices ![0, 18, 0] S64x8x64
  slices_S64x66x66_o0_18_1_S64x8x64 : S64x66x66.Slices ![0, 18, 1] S64x8x64
  slices_S64x66x66_o0_18_2_S64x8x64 : S64x66x66.Slices ![0, 18, 2] S64x8x64
  inb_S1x64x64x64_S1x64x8x64_0_0_16_0 : ∀ a, (![0, 0, 16, 0] : Fin 4 → Nat) a + S1x64x8x64.size a ≤ S1x64x64x64.size a
  slices_S64x66x66_o0_24_0_S64x8x64 : S64x66x66.Slices ![0, 24, 0] S64x8x64
  slices_S64x66x66_o0_24_1_S64x8x64 : S64x66x66.Slices ![0, 24, 1] S64x8x64
  slices_S64x66x66_o0_24_2_S64x8x64 : S64x66x66.Slices ![0, 24, 2] S64x8x64
  slices_S64x66x66_o0_25_0_S64x8x64 : S64x66x66.Slices ![0, 25, 0] S64x8x64
  slices_S64x66x66_o0_25_1_S64x8x64 : S64x66x66.Slices ![0, 25, 1] S64x8x64
  slices_S64x66x66_o0_25_2_S64x8x64 : S64x66x66.Slices ![0, 25, 2] S64x8x64
  slices_S64x66x66_o0_26_0_S64x8x64 : S64x66x66.Slices ![0, 26, 0] S64x8x64
  slices_S64x66x66_o0_26_1_S64x8x64 : S64x66x66.Slices ![0, 26, 1] S64x8x64
  slices_S64x66x66_o0_26_2_S64x8x64 : S64x66x66.Slices ![0, 26, 2] S64x8x64
  inb_S1x64x64x64_S1x64x8x64_0_0_24_0 : ∀ a, (![0, 0, 24, 0] : Fin 4 → Nat) a + S1x64x8x64.size a ≤ S1x64x64x64.size a
  slices_S64x66x66_o0_32_0_S64x8x64 : S64x66x66.Slices ![0, 32, 0] S64x8x64
  slices_S64x66x66_o0_32_1_S64x8x64 : S64x66x66.Slices ![0, 32, 1] S64x8x64
  slices_S64x66x66_o0_32_2_S64x8x64 : S64x66x66.Slices ![0, 32, 2] S64x8x64
  slices_S64x66x66_o0_33_0_S64x8x64 : S64x66x66.Slices ![0, 33, 0] S64x8x64
  slices_S64x66x66_o0_33_1_S64x8x64 : S64x66x66.Slices ![0, 33, 1] S64x8x64
  slices_S64x66x66_o0_33_2_S64x8x64 : S64x66x66.Slices ![0, 33, 2] S64x8x64
  slices_S64x66x66_o0_34_0_S64x8x64 : S64x66x66.Slices ![0, 34, 0] S64x8x64
  slices_S64x66x66_o0_34_1_S64x8x64 : S64x66x66.Slices ![0, 34, 1] S64x8x64
  slices_S64x66x66_o0_34_2_S64x8x64 : S64x66x66.Slices ![0, 34, 2] S64x8x64
  inb_S1x64x64x64_S1x64x8x64_0_0_32_0 : ∀ a, (![0, 0, 32, 0] : Fin 4 → Nat) a + S1x64x8x64.size a ≤ S1x64x64x64.size a
  slices_S64x66x66_o0_40_0_S64x8x64 : S64x66x66.Slices ![0, 40, 0] S64x8x64
  slices_S64x66x66_o0_40_1_S64x8x64 : S64x66x66.Slices ![0, 40, 1] S64x8x64
  slices_S64x66x66_o0_40_2_S64x8x64 : S64x66x66.Slices ![0, 40, 2] S64x8x64
  slices_S64x66x66_o0_41_0_S64x8x64 : S64x66x66.Slices ![0, 41, 0] S64x8x64
  slices_S64x66x66_o0_41_1_S64x8x64 : S64x66x66.Slices ![0, 41, 1] S64x8x64
  slices_S64x66x66_o0_41_2_S64x8x64 : S64x66x66.Slices ![0, 41, 2] S64x8x64
  slices_S64x66x66_o0_42_0_S64x8x64 : S64x66x66.Slices ![0, 42, 0] S64x8x64
  slices_S64x66x66_o0_42_1_S64x8x64 : S64x66x66.Slices ![0, 42, 1] S64x8x64
  slices_S64x66x66_o0_42_2_S64x8x64 : S64x66x66.Slices ![0, 42, 2] S64x8x64
  inb_S1x64x64x64_S1x64x8x64_0_0_40_0 : ∀ a, (![0, 0, 40, 0] : Fin 4 → Nat) a + S1x64x8x64.size a ≤ S1x64x64x64.size a
  slices_S64x66x66_o0_48_0_S64x8x64 : S64x66x66.Slices ![0, 48, 0] S64x8x64
  slices_S64x66x66_o0_48_1_S64x8x64 : S64x66x66.Slices ![0, 48, 1] S64x8x64
  slices_S64x66x66_o0_48_2_S64x8x64 : S64x66x66.Slices ![0, 48, 2] S64x8x64
  slices_S64x66x66_o0_49_0_S64x8x64 : S64x66x66.Slices ![0, 49, 0] S64x8x64
  slices_S64x66x66_o0_49_1_S64x8x64 : S64x66x66.Slices ![0, 49, 1] S64x8x64
  slices_S64x66x66_o0_49_2_S64x8x64 : S64x66x66.Slices ![0, 49, 2] S64x8x64
  slices_S64x66x66_o0_50_0_S64x8x64 : S64x66x66.Slices ![0, 50, 0] S64x8x64
  slices_S64x66x66_o0_50_1_S64x8x64 : S64x66x66.Slices ![0, 50, 1] S64x8x64
  slices_S64x66x66_o0_50_2_S64x8x64 : S64x66x66.Slices ![0, 50, 2] S64x8x64
  inb_S1x64x64x64_S1x64x8x64_0_0_48_0 : ∀ a, (![0, 0, 48, 0] : Fin 4 → Nat) a + S1x64x8x64.size a ≤ S1x64x64x64.size a
  slices_S64x66x66_o0_56_0_S64x8x64 : S64x66x66.Slices ![0, 56, 0] S64x8x64
  slices_S64x66x66_o0_56_1_S64x8x64 : S64x66x66.Slices ![0, 56, 1] S64x8x64
  slices_S64x66x66_o0_56_2_S64x8x64 : S64x66x66.Slices ![0, 56, 2] S64x8x64
  slices_S64x66x66_o0_57_0_S64x8x64 : S64x66x66.Slices ![0, 57, 0] S64x8x64
  slices_S64x66x66_o0_57_1_S64x8x64 : S64x66x66.Slices ![0, 57, 1] S64x8x64
  slices_S64x66x66_o0_57_2_S64x8x64 : S64x66x66.Slices ![0, 57, 2] S64x8x64
  slices_S64x66x66_o0_58_0_S64x8x64 : S64x66x66.Slices ![0, 58, 0] S64x8x64
  slices_S64x66x66_o0_58_1_S64x8x64 : S64x66x66.Slices ![0, 58, 1] S64x8x64
  slices_S64x66x66_o0_58_2_S64x8x64 : S64x66x66.Slices ![0, 58, 2] S64x8x64
  inb_S1x64x64x64_S1x64x8x64_0_0_56_0 : ∀ a, (![0, 0, 56, 0] : Fin 4 → Nat) a + S1x64x8x64.size a ≤ S1x64x64x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x66x66.size a ≤ S8x64x66x66.size a
  hwx0_0 : ∀ i : grid0.Coords, EltTy.bits .f32 = 32 ∨ (Rect.block (s := S8x64x66x66) S1x64x66x66.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64x3x3.size a ≤ S64x64x3x3.size a
  hwx0_1 : ∀ i : grid0.Coords, EltTy.bits .f32 = 32 ∨ (Rect.block (s := S64x64x3x3) S64x64x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x64.size a ≤ S8x64x64x64.size a
  hwx0_2 : ∀ i : grid0.Coords, EltTy.bits .f32 = 32 ∨ (Rect.block (s := S8x64x64x64) S1x64x64x64.size (cc0_transform_2 i) (hinb0_2 i)).WholeWords (EltTy.packing .f32)

variable [Facts₀]

abbrev win0_0 : Pipeline.Window sig grid0 :=
  Pipeline.Window.ofSpec (Memref.whole main_v0) S1x64x66x66.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x64x64 : Shape := ⟨4, ![8, 64, 64, 64]⟩
abbrev S64x64x3x3 : Shape := ⟨4, ![64, 64, 3, 3]⟩
abbrev S_ : Shape := ⟨0, ![]⟩
abbrev S8x64x66x66 : Shape := ⟨4, ![8, 64, 66, 66]⟩
abbrev S8x1x64x64x64 : Shape := ⟨5, ![8, 1, 64, 64, 64]⟩
abbrev S64x64x1x1 : Shape := ⟨4, ![64, 64, 1, 1]⟩
abbrev S64x64 : Shape := ⟨2, ![64, 64]⟩
abbrev S1x64x64 : Shape := ⟨3, ![1, 64, 64]⟩
abbrev S1x64x64x1x1 : Shape := ⟨5, ![1, 64, 64, 1, 1]⟩
abbrev S8x64x64x64x64 : Shape := ⟨5, ![8, 64, 64, 64, 64]⟩

abbrev nBuf : Space → Nat
  | .hbm => 115
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S64x64x3x3, .f32⟩
  | .hbm, ⟨2, _⟩ => ⟨S_, .f32⟩
  | .hbm, ⟨3, _⟩ => ⟨S_, .f32⟩
  | .hbm, ⟨4, _⟩ => ⟨S8x64x66x66, .f32⟩
  | .hbm, ⟨5, _⟩ => ⟨S_, .f32⟩
  | .hbm, ⟨6, _⟩ => ⟨S8x64x64x64, .f32⟩
  | .hbm, ⟨7, _⟩ => ⟨S8x64x64x64, .f32⟩
  | .hbm, ⟨8, _⟩ => ⟨S8x1x64x64x64, .f32⟩
  | .hbm, ⟨9, _⟩ => ⟨S64x64x1x1, .f32⟩
  | .hbm, ⟨10, _⟩ => ⟨S64x64, .f32⟩
  | .hbm, ⟨11, _⟩ => ⟨S1x64x64, .f32⟩
  | .hbm, ⟨12, _⟩ => ⟨S1x64x64x1x1, .f32⟩
  | .hbm, ⟨13, _⟩ => ⟨S8x64x64x64x64, .f32⟩
  | .hbm, ⟨14, _⟩ => ⟨S8x64x64x64x64, .f32⟩
  | .hbm, ⟨15, _⟩ => ⟨S8x64x64x64x64, .f32⟩
  | .hbm, ⟨16, _⟩ => ⟨S_, .f32⟩
  | .hbm, ⟨17, _⟩ => ⟨S8x64x64x64, .f32⟩
  | .hbm, ⟨18, _⟩ => ⟨S8x64x64x64, .f32⟩
  | .hbm, ⟨19, _⟩ => ⟨S8x64x64x64, .f32⟩
  | .hbm, ⟨20, _⟩ => ⟨S8x1x64x64x64, .f32⟩
  | .hbm, ⟨21, _⟩ => ⟨S64x64x1x1, .f32⟩
  | .hbm, ⟨22, _⟩ => ⟨S64x64, .f32⟩
  | .hbm, ⟨23, _⟩ => ⟨S1x64x64, .f32⟩
  | .hbm, ⟨24, _⟩ => ⟨S1x64x64x1x1, .f32⟩
  | .hbm, ⟨25, _⟩ => ⟨S8x64x64x64x64, .f32⟩
  | .hbm, ⟨26, _⟩ => ⟨S8x64x64x64x64, .f32⟩
  | .hbm, ⟨27, _⟩ => ⟨S8x64x64x64x64, .f32⟩
  | .hbm, ⟨28, _⟩ => ⟨S_, .f32⟩
  | .hbm, ⟨29, _⟩ => ⟨S8x64x64x64, .f32⟩
  | .hbm, ⟨30, _⟩ => ⟨S8x64x64x64, .f32⟩
  | .hbm, ⟨31, _⟩ => ⟨S8x64x64x64, .f32⟩
  | .hbm, ⟨32, _⟩ => ⟨S8x1x64x64x64, .f32⟩
  | .hbm, ⟨33, _⟩ => ⟨S64x64x1x1, .f32⟩
  | .hbm, ⟨34, _⟩ => ⟨S64x64, .f32⟩
  | .hbm, ⟨35, _⟩ => ⟨S1x64x64, .f32⟩
  | .hbm, ⟨36, _⟩ => ⟨S1x64x64x1x1, .f32⟩
  | .hbm, ⟨37, _⟩ => ⟨S8x64x64x64x64, .f32⟩
  | .hbm, ⟨38, _⟩ => ⟨S8x64x64x64x64, .f32⟩
  | .hbm, ⟨39, _⟩ => ⟨S8x64x64x64x64, .f32⟩
  | .hbm, ⟨40, _⟩ => ⟨S_, .f32⟩
  | .hbm, ⟨41, _⟩ => ⟨S8x64x64x64, .f32⟩
  | .hbm, ⟨42, _⟩ => ⟨S8x64x64x64, .f32⟩
  | .hbm, ⟨43, _⟩ => ⟨S8x64x64x64, .f32⟩
  | .hbm, ⟨44, _⟩ => ⟨S8x1x64x64x64, .f32⟩
  | .hbm, ⟨45, _⟩ => ⟨S64x64x1x1, .f32⟩
  | .hbm, ⟨46, _⟩ => ⟨S64x64, .f32⟩
  | .hbm, ⟨47, _⟩ => ⟨S1x64x64, .f32⟩
  | .hbm, ⟨48, _⟩ => ⟨S1x64x64x1x1, .f32⟩
  | .hbm, ⟨49, _⟩ => ⟨S8x64x64x64x64, .f32⟩
  | .hbm, ⟨50, _⟩ => ⟨S8x64x64x64x64, .f32⟩
  | .hbm, ⟨51, _⟩ => ⟨S8x64x64x64x64, .f32⟩
  | .hbm, ⟨52, _⟩ => ⟨S_, .f32⟩
  | .hbm, ⟨53, _⟩ => ⟨S8x64x64x64, .f32⟩
  | .hbm, ⟨54, _⟩ => ⟨S8x64x64x64, .f32⟩
  | .hbm, ⟨55, _⟩ => ⟨S8x64x64x64, .f32⟩
  | .hbm, ⟨56, _⟩ => ⟨S8x1x64x64x64, .f32⟩
  | .hbm, ⟨57, _⟩ => ⟨S64x64x1x1, .f32⟩
  | .hbm, ⟨58, _⟩ => ⟨S64x64, .f32⟩
  | .hbm, ⟨59, _⟩ => ⟨S1x64x64, .f32⟩
  | .hbm, ⟨60, _⟩ => ⟨S1x64x64x1x1, .f32⟩
  | .hbm, ⟨61, _⟩ => ⟨S8x64x64x64x64, .f32⟩
  | .hbm, ⟨62, _⟩ => ⟨S8x64x64x64x64, .f32⟩
  | .hbm, ⟨63, _⟩ => ⟨S8x64x64x64x64, .f32⟩
  | .hbm, ⟨64, _⟩ => ⟨S_, .f32⟩
  | .hbm, ⟨65, _⟩ => ⟨S8x64x64x64, .f32⟩
  | .hbm, ⟨66, _⟩ => ⟨S8x64x64x64, .f32⟩
  | .hbm, ⟨67, _⟩ => ⟨S8x64x64x64, .f32⟩
  | .hbm, ⟨68, _⟩ => ⟨S8x1x64x64x64, .f32⟩
  | .hbm, ⟨69, _⟩ => ⟨S64x64x1x1, .f32⟩
  | .hbm, ⟨70, _⟩ => ⟨S64x64, .f32⟩
  | .hbm, ⟨71, _⟩ => ⟨S1x64x64, .f32⟩
  | .hbm, ⟨72, _⟩ => ⟨S1x64x64x1x1, .f32⟩
  | .hbm, ⟨73, _⟩ => ⟨S8x64x64x64x64, .f32⟩
  | .hbm, ⟨74, _⟩ => ⟨S8x64x64x64x64, .f32⟩
  | .hbm, ⟨75, _⟩ => ⟨S8x64x64x64x64, .f32⟩
  | .hbm, ⟨76, _⟩ => ⟨S_, .f32⟩
  | .hbm, ⟨77, _⟩ => ⟨S8x64x64x64, .f32⟩
  | .hbm, ⟨78, _⟩ => ⟨S8x64x64x64, .f32⟩
  | .hbm, ⟨79, _⟩ => ⟨S8x64x64x64, .f32⟩
  | .hbm, ⟨80, _⟩ => ⟨S8x1x64x64x64, .f32⟩
  | .hbm, ⟨81, _⟩ => ⟨S64x64x1x1, .f32⟩
  | .hbm, ⟨82, _⟩ => ⟨S64x64, .f32⟩
  | .hbm, ⟨83, _⟩ => ⟨S1x64x64, .f32⟩
  | .hbm, ⟨84, _⟩ => ⟨S1x64x64x1x1, .f32⟩
  | .hbm, ⟨85, _⟩ => ⟨S8x64x64x64x64, .f32⟩
  | .hbm, ⟨86, _⟩ => ⟨S8x64x64x64x64, .f32⟩
  | .hbm, ⟨87, _⟩ => ⟨S8x64x64x64x64, .f32⟩
  | .hbm, ⟨88, _⟩ => ⟨S_, .f32⟩
  | .hbm, ⟨89, _⟩ => ⟨S8x64x64x64, .f32⟩
  | .hbm, ⟨90, _⟩ => ⟨S8x64x64x64, .f32⟩
  | .hbm, ⟨91, _⟩ => ⟨S8x64x64x64, .f32⟩
  | .hbm, ⟨92, _⟩ => ⟨S8x1x64x64x64, .f32⟩
  | .hbm, ⟨93, _⟩ => ⟨S64x64x1x1, .f32⟩
  | .hbm, ⟨94, _⟩ => ⟨S64x64, .f32⟩
  | .hbm, ⟨95, _⟩ => ⟨S1x64x64, .f32⟩
  | .hbm, ⟨96, _⟩ => ⟨S1x64x64x1x1, .f32⟩
  | .hbm, ⟨97, _⟩ => ⟨S8x64x64x64x64, .f32⟩
  | .hbm, ⟨98, _⟩ => ⟨S8x64x64x64x64, .f32⟩
  | .hbm, ⟨99, _⟩ => ⟨S8x64x64x64x64, .f32⟩
  | .hbm, ⟨100, _⟩ => ⟨S_, .f32⟩
  | .hbm, ⟨101, _⟩ => ⟨S8x64x64x64, .f32⟩
  | .hbm, ⟨102, _⟩ => ⟨S8x64x64x64, .f32⟩
  | .hbm, ⟨103, _⟩ => ⟨S8x64x64x64, .f32⟩
  | .hbm, ⟨104, _⟩ => ⟨S8x1x64x64x64, .f32⟩
  | .hbm, ⟨105, _⟩ => ⟨S64x64x1x1, .f32⟩
  | .hbm, ⟨106, _⟩ => ⟨S64x64, .f32⟩
  | .hbm, ⟨107, _⟩ => ⟨S1x64x64, .f32⟩
  | .hbm, ⟨108, _⟩ => ⟨S1x64x64x1x1, .f32⟩
  | .hbm, ⟨109, _⟩ => ⟨S8x64x64x64x64, .f32⟩
  | .hbm, ⟨110, _⟩ => ⟨S8x64x64x64x64, .f32⟩
  | .hbm, ⟨111, _⟩ => ⟨S8x64x64x64x64, .f32⟩
  | .hbm, ⟨112, _⟩ => ⟨S_, .f32⟩
  | .hbm, ⟨113, _⟩ => ⟨S8x64x64x64, .f32⟩
  | .hbm, ⟨114, _⟩ => ⟨S8x64x64x64, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_6 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_7 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_8 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_9 : Ref sig .tc := ⟨.hbm, 112, rfl⟩
abbrev main_v99 : Ref sig .tc := ⟨.hbm, 113, rfl⟩
abbrev main_v100 : Ref sig .tc := ⟨.hbm, 114, rfl⟩

abbrev nD : Nat := 1
abbrev τ : Topo := Topo.v7x

variable {F : FTy → Type} [FloatOps F]

class Facts₀ : Prop where
  pads_S8x64x64x64_S8x64x66x66_000_000_110_110 : S8x64x64x64.Pads (![0, 0, 1, 1] : Fin 4 → Nat) ![0, 0, 1, 1] ![0, 0, 0, 0] S8x64x66x66
  h_S_ : 0 < S_.numel
  bcast_S_S8x64x64x64 : S_.BroadcastsInDim S8x64x64x64 (![] : Fin 0 → Fin S8x64x64x64.rank)
  slices_S8x64x66x66_S8x64x64x64_0_0_0_0 : S8x64x66x66.Slices ![0, 0, 0, 0] S8x64x64x64
  bcast_S8x64x64x64_S8x1x64x64x64_0_2_3_4 : S8x64x64x64.BroadcastsInDim S8x1x64x64x64 (![0, 2, 3, 4] : Fin 4 → Fin S8x1x64x64x64.rank)
  slices_S64x64x3x3_S64x64x1x1_0_0_0_0 : S64x64x3x3.Slices ![0, 0, 0, 0] S64x64x1x1
  shapeCasts_S64x64x1x1_S64x64 : S64x64x1x1.ShapeCasts S64x64
  bcast_S64x64_S1x64x64_1_2 : S64x64.BroadcastsInDim S1x64x64 (![1, 2] : Fin 2 → Fin S1x64x64.rank)
  bcast_S1x64x64_S1x64x64x1x1_0_1_2 : S1x64x64.BroadcastsInDim S1x64x64x1x1 (![0, 1, 2] : Fin 3 → Fin S1x64x64x1x1.rank)
  bcast_S8x1x64x64x64_S8x64x64x64x64_0_1_2_3_4 : S8x1x64x64x64.BroadcastsInDim S8x64x64x64x64 (![0, 1, 2, 3, 4] : Fin 5 → Fin S8x64x64x64x64.rank)
  bcast_S1x64x64x1x1_S8x64x64x64x64_0_1_2_3_4 : S1x64x64x1x1.BroadcastsInDim S8x64x64x64x64 (![0, 1, 2, 3, 4] : Fin 5 → Fin S8x64x64x64x64.rank)
  reducesTo_S8x64x64x64x64_S8x64x64x64_d2 : S8x64x64x64x64.ReducesTo [2] S8x64x64x64
  slices_S8x64x66x66_S8x64x64x64_0_0_0_1 : S8x64x66x66.Slices ![0, 0, 0, 1] S8x64x64x64
  slices_S64x64x3x3_S64x64x1x1_0_0_0_1 : S64x64x3x3.Slices ![0, 0, 0, 1] S64x64x1x1
  slices_S8x64x66x66_S8x64x64x64_0_0_0_2 : S8x64x66x66.Slices ![0, 0, 0, 2] S8x64x64x64
  slices_S64x64x3x3_S64x64x1x1_0_0_0_2 : S64x64x3x3.Slices ![0, 0, 0, 2] S64x64x1x1
  slices_S8x64x66x66_S8x64x64x64_0_0_1_0 : S8x64x66x66.Slices ![0, 0, 1, 0] S8x64x64x64
  slices_S64x64x3x3_S64x64x1x1_0_0_1_0 : S64x64x3x3.Slices ![0, 0, 1, 0] S64x64x1x1
  slices_S8x64x66x66_S8x64x64x64_0_0_1_1 : S8x64x66x66.Slices ![0, 0, 1, 1] S8x64x64x64
  slices_S64x64x3x3_S64x64x1x1_0_0_1_1 : S64x64x3x3.Slices ![0, 0, 1, 1] S64x64x1x1
  slices_S8x64x66x66_S8x64x64x64_0_0_1_2 : S8x64x66x66.Slices ![0, 0, 1, 2] S8x64x64x64
  slices_S64x64x3x3_S64x64x1x1_0_0_1_2 : S64x64x3x3.Slices ![0, 0, 1, 2] S64x64x1x1
  slices_S8x64x66x66_S8x64x64x64_0_0_2_0 : S8x64x66x66.Slices ![0, 0, 2, 0] S8x64x64x64
  slices_S64x64x3x3_S64x64x1x1_0_0_2_0 : S64x64x3x3.Slices ![0, 0, 2, 0] S64x64x1x1
  slices_S8x64x66x66_S8x64x64x64_0_0_2_1 : S8x64x66x66.Slices ![0, 0, 2, 1] S8x64x64x64
  slices_S64x64x3x3_S64x64x1x1_0_0_2_1 : S64x64x3x3.Slices ![0, 0, 2, 1] S64x64x1x1
  slices_S8x64x66x66_S8x64x64x64_0_0_2_2 : S8x64x66x66.Slices ![0, 0, 2, 2] S8x64x64x64
  slices_S64x64x3x3_S64x64x1x1_0_0_2_2 : S64x64x3x3.Slices ![0, 0, 2, 2] S64x64x1x1

variable [Facts₀]

class Facts : Prop extends Facts₀ where

variable [Facts]
-- ==== Proof.MaxPlus.lean ====
/-
  Max-plus (tropical) 3×3 convolution, the function both programs compute.

  With XP the input padded by one row and column of −∞ on each side of the two image axes and K the
  filter, the result at (b, o, h, w) is
      max over the nine taps (i, j) of  max over channels c of  XP[b, c, h + i, w + j] + K[o, c, i, j],
  each inner maximum a fold of max from −∞ over the 64 channels, and the outer one the running maximum
  from −∞ over the taps in row-major order (0,0), (0,1), …, (2,2).  Neither program rearranges this:
  the kernel computes it one image and eight rows at a time, the reference on whole arrays.

  This file states that function over arrays read at natural-number coordinates, with a row offset e
  kept apart from the row h (a kernel tile starting at row e reads rows e + i + r of its image), and the
  small algebra of moving that offset into the row and of changing the arrays.  It mentions no program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.MaxPlus

open Idealize.ShloMosaic Idealize.ShloMosaic.ValueIdx

/-- The value both programs start every maximum from: the word of −∞. -/
abbrev negInf : EReal := FloatOps.ofBits (F := Ideal) .f32 0xFF800000#32

/-! ## Arrays read at natural-number coordinates -/

/-- A rank-4 array read at four natural numbers (0 outside the array: never used there). -/
def at4 {n0 n1 n2 n3 : Nat} (X : (⟨4, ![n0, n1, n2, n3]⟩ : Shape).Idx → EReal) (a b c d : Nat) : EReal :=
  if h : a < n0 ∧ b < n1 ∧ c < n2 ∧ d < n3 then X (ix4 ⟨a, h.1⟩ ⟨b, h.2.1⟩ ⟨c, h.2.2.1⟩ ⟨d, h.2.2.2⟩) else 0

/-- Reading at an index is reading at its four coordinates. -/
theorem at4_eq {n0 n1 n2 n3 : Nat} (X : (⟨4, ![n0, n1, n2, n3]⟩ : Shape).Idx → EReal)
    (k : (⟨4, ![n0, n1, n2, n3]⟩ : Shape).Idx) : X k = at4 X (k 0).val (k 1).val (k 2).val (k 3).val := by
  unfold at4
  rw [dif_pos ⟨(k 0).isLt, (k 1).isLt, (k 2).isLt, (k 3).isLt⟩]
  exact congrArg X (eq_ix4 k)

theorem at4_congr {n0 n1 n2 n3 : Nat} (X : (⟨4, ![n0, n1, n2, n3]⟩ : Shape).Idx → EReal) {a b c d a' b' c' d' : Nat}
    (ha : a = a') (hb : b = b') (hc : c = c') (hd : d = d') : at4 X a b c d = at4 X a' b' c' d' := by
  subst ha hb hc hd; rfl

/-- A unit-stride slice of a rank-4 array read at an index: the array at the offsets plus the coordinates. -/
theorem slice4_at {n0 n1 n2 n3 p0 p1 p2 p3 : Nat} (off : Fin 4 → Nat)
    (x : (⟨4, ![n0, n1, n2, n3]⟩ : Shape).Idx → EReal)
    (h : Shape.Slices (s := ⟨4, ![n0, n1, n2, n3]⟩) off ⟨4, ![p0, p1, p2, p3]⟩)
    (j : (⟨4, ![p0, p1, p2, p3]⟩ : Shape).Idx) :
    extractStridedSlice ⟨4, ![p0, p1, p2, p3]⟩ off x h j
      = at4 x (off 0 + (j 0).val) (off 1 + (j 1).val) (off 2 + (j 2).val) (off 3 + (j 3).val) := by
  unfold extractStridedSlice
  rw [at4_eq x]
  rfl

/-- The same for a slice of a [1, n1, n2, n3] array viewed [n1, n2, n3]: the leading coordinate is 0. -/
theorem slice3_drop_at {n1 n2 n3 p1 p2 p3 : Nat} (X0 : (⟨4, ![1, n1, n2, n3]⟩ : Shape).Idx → EReal)
    (hc : Shape.ShapeCasts (⟨4, ![1, n1, n2, n3]⟩ : Shape) ⟨3, ![n1, n2, n3]⟩) (off : Fin 3 → Nat)
    (h : Shape.Slices (s := ⟨3, ![n1, n2, n3]⟩) off ⟨3, ![p1, p2, p3]⟩) (j : (⟨3, ![p1, p2, p3]⟩ : Shape).Idx) :
    extractStridedSlice ⟨3, ![p1, p2, p3]⟩ off (shapeCast ⟨3, ![n1, n2, n3]⟩ X0 hc) h j
      = at4 X0 0 (off 0 + (j 0).val) (off 1 + (j 1).val) (off 2 + (j 2).val) := by
  unfold extractStridedSlice
  refine (shapeCast_dropUnit_apply ![n1, n2, n3] X0 hc _).trans ?_
  rw [at4_eq X0]
  rfl

/-! ## The function -/

/-- One tap's candidate: the maximum over the channels of image entry plus filter entry, from −∞. -/
def cand (X Kc : Fin 64 → EReal) : EReal :=
  (Finset.univ : Finset (Fin 64)).fold max negInf (fun c => X c + Kc c)

theorem cand_congr {X X' Kc Kc' : Fin 64 → EReal} (hX : ∀ c, X c = X' c) (hK : ∀ c, Kc c = Kc' c) :
    cand X Kc = cand X' Kc' := by
  rw [show X = X' from funext hX, show Kc = Kc' from funext hK]

/-- The running maximum of nine candidates from −∞, in order. -/
def max9 (c0 c1 c2 c3 c4 c5 c6 c7 c8 : EReal) : EReal :=
  max (max (max (max (max (max (max (max (max negInf c0) c1) c2) c3) c4) c5) c6) c7) c8

theorem max9_congr {c0 c1 c2 c3 c4 c5 c6 c7 c8 d0 d1 d2 d3 d4 d5 d6 d7 d8 : EReal} (h0 : c0 = d0) (h1 : c1 = d1)
    (h2 : c2 = d2) (h3 : c3 = d3) (h4 : c4 = d4) (h5 : c5 = d5) (h6 : c6 = d6) (h7 : c7 = d7) (h8 : c8 = d8) :
    max9 c0 c1 c2 c3 c4 c5 c6 c7 c8 = max9 d0 d1 d2 d3 d4 d5 d6 d7 d8 := by
  subst h0 h1 h2 h3 h4 h5 h6 h7 h8; rfl

/-- Nine pointwise maxima of vectors, started from a vector that is −∞ at the index, read at the index. -/
theorem max9_apply {s : Shape} (init T0 T1 T2 T3 T4 T5 T6 T7 T8 : FVec Ideal s .f32) (j : s.Idx) (h : init j = negInf) :
    (maximumf (maximumf (maximumf (maximumf (maximumf (maximumf (maximumf (maximumf (maximumf init T0) T1) T2) T3) T4) T5) T6) T7) T8) j
      = max9 (T0 j) (T1 j) (T2 j) (T3 j) (T4 j) (T5 j) (T6 j) (T7 j) (T8 j) := by
  unfold max9; rw [← h]; rfl

/-- Tap (i, j) at image b, output channel o, row e + h and column w: the image X read at rows e + i + h and columns
    j + w, the filter K at (o, ·, i, j).  (The zeros added in front are how a slice's offsets read.) -/
def tap {n0 n1 n2 n3 : Nat} (X : (⟨4, ![n0, n1, n2, n3]⟩ : Shape).Idx → EReal)
    (K : (⟨4, ![64, 64, 3, 3]⟩ : Shape).Idx → EReal) (b o e h w i j : Nat) : EReal :=
  cand (fun c => at4 X (0 + b) (0 + c.val) (e + i + h) (j + w)) (fun c => at4 K (0 + o) (0 + c.val) (i + 0) (j + 0))

/-- The nine taps' running maximum. -/
def taps {n0 n1 n2 n3 : Nat} (X : (⟨4, ![n0, n1, n2, n3]⟩ : Shape).Idx → EReal)
    (K : (⟨4, ![64, 64, 3, 3]⟩ : Shape).Idx → EReal) (b o e h w : Nat) : EReal :=
  max9 (tap X K b o e h w 0 0) (tap X K b o e h w 0 1) (tap X K b o e h w 0 2)
    (tap X K b o e h w 1 0) (tap X K b o e h w 1 1) (tap X K b o e h w 1 2)
    (tap X K b o e h w 2 0) (tap X K b o e h w 2 1) (tap X K b o e h w 2 2)

/-- THE FUNCTION: the max-plus convolution of the padded image with the filter, at an index of the result. -/
def conv (XP : (⟨4, ![8, 64, 66, 66]⟩ : Shape).Idx → EReal) (K : (⟨4, ![64, 64, 3, 3]⟩ : Shape).Idx → EReal) :
    (⟨4, ![8, 64, 64, 64]⟩ : Shape).Idx → EReal := fun y =>
  taps XP K (y 0).val (y 1).val 0 (y 2).val (y 3).val

/-- A tile's row offset is a shift of the row. -/
theorem taps_shift {n0 n1 n2 n3 : Nat} (X : (⟨4, ![n0, n1, n2, n3]⟩ : Shape).Idx → EReal)
    (K : (⟨4, ![64, 64, 3, 3]⟩ : Shape).Idx → EReal) (b o e h w : Nat) :
    taps X K b o e h w = taps X K b o 0 (e + h) w := by
  unfold taps tap
  refine max9_congr ?_ ?_ ?_ ?_ ?_ ?_ ?_ ?_ ?_ <;>
    exact cand_congr (fun c => at4_congr X rfl rfl (by omega) rfl) (fun c => rfl)

theorem taps_congr_args {n0 n1 n2 n3 : Nat} (X : (⟨4, ![n0, n1, n2, n3]⟩ : Shape).Idx → EReal)
    (K : (⟨4, ![64, 64, 3, 3]⟩ : Shape).Idx → EReal) (b e : Nat) {o h w o' h' w' : Nat}
    (ho : o = o') (hh : h = h') (hw : w = w') : taps X K b o e h w = taps X K b o' e h' w' := by
  subst ho hh hw; rfl

/-- The taps depend on the image only through image b's entries and on the filter through its entries. -/
theorem taps_congr_arrays {n0 n1 n2 n3 n0' : Nat} (X : (⟨4, ![n0, n1, n2, n3]⟩ : Shape).Idx → EReal)
    (X' : (⟨4, ![n0', n1, n2, n3]⟩ : Shape).Idx → EReal) (K K' : (⟨4, ![64, 64, 3, 3]⟩ : Shape).Idx → EReal)
    (b b' o e h w : Nat) (hX : ∀ c y x, at4 X (0 + b) c y x = at4 X' (0 + b') c y x)
    (hK : ∀ a c i j, at4 K a c i j = at4 K' a c i j) :
    taps X K b o e h w = taps X' K' b' o e h w := by
  unfold taps tap
  refine max9_congr ?_ ?_ ?_ ?_ ?_ ?_ ?_ ?_ ?_ <;>
    exact cand_congr (fun c => hX _ _ _) (fun c => hK _ _ _ _)

end Cert.MaxPlus

end
-- ==== Proof.Taps.lean ====
/-
  One tap of either program, read at an index.

  Kernel: the image slice A : [64, 8, 64] (channel, row, column) is viewed [1, 64, 8, 64] and broadcast over the 64
  output channels, the filter slice B : [64, 64, 1, 1] (output channel, channel) is cast to [64, 64] and back and
  broadcast over rows and columns, the two are added, and the channel axis (axis 1 of [64, 64, 8, 64]) is reduced
  by max from −∞.  At (o, r, w) that is the fold over c of A[c, r, w] + B[o, c, 0, 0].

  Reference: the image slice A : [8, 64, 64, 64] (image, channel, row, column) gets a unit output-channel axis and
  is broadcast to [8, 64, 64, 64, 64], the filter slice B is cast to [64, 64] and broadcast to the same shape, the
  two are added, and the channel axis (axis 2) is reduced by max from −∞.  At (b, o, h, w) that is the fold over c
  of A[b, c, h, w] + B[o, c, 0, 0].
-/
import proofs.«170946_j15960098472407_1_alg».proof.Proof.MaxPlus

noncomputable section

namespace Cert.MaxPlus

open Idealize.ShloMosaic Idealize.ShloMosaic.ValueIdx

/-- The kernel's tap at (o, r, w). -/
theorem kernel_tap (A : FVec Ideal ⟨3, ![64, 8, 64]⟩ .f32) (B : FVec Ideal ⟨4, ![64, 64, 1, 1]⟩ .f32)
    (hc1 : Shape.ShapeCasts (⟨3, ![64, 8, 64]⟩ : Shape) ⟨4, ![1, 64, 8, 64]⟩)
    (hb1 : Shape.Broadcasts (⟨4, ![1, 64, 8, 64]⟩ : Shape) ⟨4, ![64, 64, 8, 64]⟩)
    (hc2 : Shape.ShapeCasts (⟨4, ![64, 64, 1, 1]⟩ : Shape) ⟨2, ![64, 64]⟩)
    (hc3 : Shape.ShapeCasts (⟨2, ![64, 64]⟩ : Shape) ⟨4, ![64, 64, 1, 1]⟩)
    (hb2 : Shape.Broadcasts (⟨4, ![64, 64, 1, 1]⟩ : Shape) ⟨4, ![64, 64, 8, 64]⟩)
    (hred : Shape.Reduces (⟨4, ![64, 64, 8, 64]⟩ : Shape) [1] ⟨3, ![64, 8, 64]⟩)
    (hφ : FKind.Formats .f32) (hacc : (0xFF800000#32 : BitVec 32) = FKind.maximumf.neutral .f32 hφ)
    (j : (⟨3, ![64, 8, 64]⟩ : Shape).Idx) :
    multiReduction .maximumf [1] ⟨3, ![64, 8, 64]⟩
        (addf (broadcastTo ⟨4, ![64, 64, 8, 64]⟩ (shapeCast ⟨4, ![1, 64, 8, 64]⟩ A hc1) hb1)
          (broadcastTo ⟨4, ![64, 64, 8, 64]⟩ (shapeCast ⟨4, ![64, 64, 1, 1]⟩ (shapeCast ⟨2, ![64, 64]⟩ B hc2) hc3) hb2))
        0xFF800000#32 hred hφ hacc j
      = cand (fun c => A (ix3 c (j 1) (j 2))) (fun c => B (ix4 (j 0) c 0 0)) := by
  rw [Ideal.multiReduction_maximumf_single]
  unfold cand
  refine Finset.fold_congr (fun c _ => ?_)
  show (broadcastTo ⟨4, ![64, 64, 8, 64]⟩ (shapeCast ⟨4, ![1, 64, 8, 64]⟩ A hc1) hb1) (hred.lift j c)
      + (broadcastTo ⟨4, ![64, 64, 8, 64]⟩ (shapeCast ⟨4, ![64, 64, 1, 1]⟩ (shapeCast ⟨2, ![64, 64]⟩ B hc2) hc3) hb2) (hred.lift j c)
      = A (ix3 c (j 1) (j 2)) + B (ix4 (j 0) c 0 0)
  rw [shapeCast_shapeCast]
  have e1 : (broadcastTo ⟨4, ![64, 64, 8, 64]⟩ (shapeCast ⟨4, ![1, 64, 8, 64]⟩ A hc1) hb1) (hred.lift j c) = A (ix3 c (j 1) (j 2)) := by
    refine (broadcastTo_apply _ hb1 (hred.lift j c) (ix4 0 c (j 1) (j 2)) (fun a => ?_)).trans ?_
    · match a with
      | ⟨0, _⟩ => rfl
      | ⟨1, _⟩ => rfl
      | ⟨2, _⟩ => rfl
      | ⟨3, _⟩ => rfl
    · refine shapeCast_apply A hc1 _ _ ?_
      rw [Shape.rowMajor_val_three, Shape.rowMajor_val_four]
      show (c.val * 8 + (j 1).val) * 64 + (j 2).val = (((0 * 64 + c.val) * 8 + (j 1).val) * 64 + (j 2).val)
      omega
  have e2 : (broadcastTo ⟨4, ![64, 64, 8, 64]⟩ B hb2) (hred.lift j c) = B (ix4 (j 0) c 0 0) := by
    refine broadcastTo_apply _ hb2 (hred.lift j c) (ix4 (j 0) c 0 0) (fun a => ?_)
    match a with
    | ⟨0, _⟩ => rfl
    | ⟨1, _⟩ => rfl
    | ⟨2, _⟩ => rfl
    | ⟨3, _⟩ => rfl
  rw [e1, e2]

/-- The reference's tap at (b, o, h, w). -/
theorem host_tap (A : (⟨4, ![8, 64, 64, 64]⟩ : Shape).Idx → EReal) (B : (⟨4, ![64, 64, 1, 1]⟩ : Shape).Idx → EReal)
    (hb1 : Shape.BroadcastsInDim (⟨4, ![8, 64, 64, 64]⟩ : Shape) ⟨5, ![8, 1, 64, 64, 64]⟩ ![0, 2, 3, 4])
    (hb2 : Shape.BroadcastsInDim (⟨5, ![8, 1, 64, 64, 64]⟩ : Shape) ⟨5, ![8, 64, 64, 64, 64]⟩ ![0, 1, 2, 3, 4])
    (hc : Shape.ShapeCasts (⟨4, ![64, 64, 1, 1]⟩ : Shape) ⟨2, ![64, 64]⟩)
    (hb3 : Shape.BroadcastsInDim (⟨2, ![64, 64]⟩ : Shape) ⟨3, ![1, 64, 64]⟩ ![1, 2])
    (hb4 : Shape.BroadcastsInDim (⟨3, ![1, 64, 64]⟩ : Shape) ⟨5, ![1, 64, 64, 1, 1]⟩ ![0, 1, 2])
    (hb5 : Shape.BroadcastsInDim (⟨5, ![1, 64, 64, 1, 1]⟩ : Shape) ⟨5, ![8, 64, 64, 64, 64]⟩ ![0, 1, 2, 3, 4])
    (hred' : Shape.ReducesTo (⟨5, ![8, 64, 64, 64, 64]⟩ : Shape) [2] ⟨4, ![8, 64, 64, 64]⟩)
    (hu : 0 < (⟨0, ![]⟩ : Shape).numel)
    (i : (⟨4, ![8, 64, 64, 64]⟩ : Shape).Idx) :
    Host.reduce (FloatOps.maximumf (F := Ideal) (φ := .f32))
        (addf (F := Ideal) (φ := .f32)
          (broadcastInDim ⟨5, ![8, 64, 64, 64, 64]⟩ ![0, 1, 2, 3, 4] hb2 (broadcastInDim ⟨5, ![8, 1, 64, 64, 64]⟩ ![0, 2, 3, 4] hb1 A))
          (broadcastInDim ⟨5, ![8, 64, 64, 64, 64]⟩ ![0, 1, 2, 3, 4] hb5
            (broadcastInDim ⟨5, ![1, 64, 64, 1, 1]⟩ ![0, 1, 2] hb4
              (broadcastInDim ⟨3, ![1, 64, 64]⟩ ![1, 2] hb3 (shapeCast ⟨2, ![64, 64]⟩ B hc)))))
        (constant (F := Ideal) ⟨0, ![]⟩ .f32 0xFF800000#32) hred' hu i
      = cand (fun c => A (ix4 (i 0) c (i 2) (i 3))) (fun c => B (ix4 (i 1) c 0 0)) := by
  have hred : Shape.Reduces (⟨5, ![8, 64, 64, 64, 64]⟩ : Shape) [2] ⟨4, ![8, 64, 64, 64]⟩ := by decide
  rw [Host.reduce_eq_fold_single _ _ _ hred' hred hu]
  unfold cand
  refine Finset.fold_congr (fun c _ => ?_)
  show (broadcastInDim ⟨5, ![8, 64, 64, 64, 64]⟩ ![0, 1, 2, 3, 4] hb2 (broadcastInDim ⟨5, ![8, 1, 64, 64, 64]⟩ ![0, 2, 3, 4] hb1 A)) (hred.lift i c)
      + (broadcastInDim ⟨5, ![8, 64, 64, 64, 64]⟩ ![0, 1, 2, 3, 4] hb5
            (broadcastInDim ⟨5, ![1, 64, 64, 1, 1]⟩ ![0, 1, 2] hb4
              (broadcastInDim ⟨3, ![1, 64, 64]⟩ ![1, 2] hb3 (shapeCast ⟨2, ![64, 64]⟩ B hc)))) (hred.lift i c)
      = A (ix4 (i 0) c (i 2) (i 3)) + B (ix4 (i 1) c 0 0)
  have e1 : (broadcastInDim ⟨5, ![8, 64, 64, 64, 64]⟩ ![0, 1, 2, 3, 4] hb2 (broadcastInDim ⟨5, ![8, 1, 64, 64, 64]⟩ ![0, 2, 3, 4] hb1 A)) (hred.lift i c)
      = A (ix4 (i 0) c (i 2) (i 3)) := by
    refine (broadcastInDim_apply _ hb2 _ (hred.lift i c) (ix5 (i 0) 0 c (i 2) (i 3)) (fun a => ?_)).trans ?_
    · match a with
      | ⟨0, _⟩ => rfl
      | ⟨1, _⟩ => rfl
      | ⟨2, _⟩ => rfl
      | ⟨3, _⟩ => rfl
      | ⟨4, _⟩ => rfl
    · refine broadcastInDim_apply _ hb1 A _ (ix4 (i 0) c (i 2) (i 3)) (fun a => ?_)
      match a with
      | ⟨0, _⟩ => rfl
      | ⟨1, _⟩ => rfl
      | ⟨2, _⟩ => rfl
      | ⟨3, _⟩ => rfl
  have e2 : (broadcastInDim ⟨5, ![8, 64, 64, 64, 64]⟩ ![0, 1, 2, 3, 4] hb5
            (broadcastInDim ⟨5, ![1, 64, 64, 1, 1]⟩ ![0, 1, 2] hb4
              (broadcastInDim ⟨3, ![1, 64, 64]⟩ ![1, 2] hb3 (shapeCast ⟨2, ![64, 64]⟩ B hc)))) (hred.lift i c)
      = B (ix4 (i 1) c 0 0) := by
    refine (broadcastInDim_apply _ hb5 _ (hred.lift i c) (ix5 0 (i 1) c 0 0) (fun a => ?_)).trans ?_
    · match a with
      | ⟨0, _⟩ => rfl
      | ⟨1, _⟩ => rfl
      | ⟨2, _⟩ => rfl
      | ⟨3, _⟩ => rfl
      | ⟨4, _⟩ => rfl
    refine (broadcastInDim_apply _ hb4 _ (ix5 0 (i 1) c 0 0) (ix3 0 (i 1) c) (fun a => ?_)).trans ?_
    · match a with
      | ⟨0, _⟩ => rfl
      | ⟨1, _⟩ => rfl
      | ⟨2, _⟩ => rfl
    refine (broadcastInDim_apply _ hb3 _ (ix3 0 (i 1) c) (ix2 (i 1) c) (fun a => ?_)).trans ?_
    · match a with
      | ⟨0, _⟩ => rfl
      | ⟨1, _⟩ => rfl
    refine shapeCast_apply B hc _ (ix4 (i 1) c 0 0) ?_
    rw [Shape.rowMajor_val_four, Shape.rowMajor_val_two]
    show (((i 1).val * 64 + c.val) * 1 + 0) * 1 + 0 = (i 1).val * 64 + c.val
    omega
  rw [e1, e2]

end Cert.MaxPlus

end
-- ==== Proof.Tiles.lean ====
/-
  The kernel's body, tile by tile.

  The body computes one image's result [1, 64, 64, 64] in eight tiles of eight rows.  Tile n (rows 8n … 8n + 7) is the
  running maximum from −∞, over the nine taps (i, j) in row-major order, of one reduction each: the staged padded
  image's slice at row offset 8n + i and column offset j, broadcast over the output channels, plus the filter's slice
  at (i, j), broadcast over rows and columns, maximised over the channel axis.  The tile is stored through the
  rectangle at row offset 8n.

  `tile_apply` reads such a tile at (0, o, r, w) for ANY nine image slices and nine filter slices; each tile of the body
  is an instance (`tile_0` … `tile_7`: the slices' offsets are the taps' shifts at row offset 8n).  Moving the row offset
  into the row makes a tile the block its rectangle names of ONE function of the two staging buffers (`blockOf`,
  `tile_block`), and since the eight rectangles tile the buffer, the buffer after the stores is that function (`out_eq`).
-/
import proofs.«170946_j15960098472407_1_alg».proof.Proof.Taps
import proofs.«170946_j15960098472407_1_alg».proof.Proof.Gen.KernelIdeal.Frame

set_option maxRecDepth 16384

noncomputable section

namespace Cert.KernelIdeal.Tiles

open Cert.KernelIdeal Cert.KernelIdeal.Gen Idealize.ShloMosaic Idealize.ShloMosaic.ValueIdx Cert.MaxPlus

/-- One image's result as a function of the staged image X0 : [1, 64, 66, 66] and the staged filter X1. -/
def blockOf (X0 : Vec Ideal S1x64x66x66 .f32) (X1 : Vec Ideal S64x64x3x3 .f32) : Vec Ideal S1x64x64x64 .f32 :=
  fun y => taps X0 X1 0 (y 1).val 0 (y 2).val (y 3).val

/-- One tap of the body, of an image slice A and a filter slice B: the channel maximum of their broadcast sum. -/
abbrev red (A : FVec Ideal S64x8x64 .f32) (B : FVec Ideal S64x64x1x1 .f32) : FVec Ideal S64x8x64 .f32 :=
  multiReduction .maximumf [1] S64x8x64
    (addf (broadcastTo S64x64x8x64 (shapeCast S1x64x8x64 A shapeCasts_S64x8x64_S1x64x8x64) broadcasts_S1x64x8x64_S64x64x8x64)
      (broadcastTo S64x64x8x64
        (shapeCast S64x64x1x1 (shapeCast S64x64 B shapeCasts_S64x64x1x1_S64x64) shapeCasts_S64x64_S64x64x1x1)
        broadcasts_S64x64x1x1_S64x64x8x64))
    0xFF800000#32 reduces_S64x64x8x64_S64x8x64 (.inl rfl) rfl

/-- A TILE AT AN INDEX: nine taps' running maximum from a vector that is −∞ there, viewed [1, 64, 8, 64], read at
    (0, o, r, w), is the running maximum of the nine channel folds of image slice at (c, r, w) plus filter slice at
    (o, c, 0, 0). -/
theorem tile_apply (init A0 A1 A2 A3 A4 A5 A6 A7 A8 : FVec Ideal S64x8x64 .f32)
    (B0 B1 B2 B3 B4 B5 B6 B7 B8 : FVec Ideal S64x64x1x1 .f32) (o : Fin 64) (r : Fin 8) (w : Fin 64)
    (hinit : init (ix3 o r w) = negInf) :
    shapeCast S1x64x8x64
        (maximumf (maximumf (maximumf (maximumf (maximumf (maximumf (maximumf (maximumf (maximumf init
          (red A0 B0)) (red A1 B1)) (red A2 B2)) (red A3 B3)) (red A4 B4)) (red A5 B5)) (red A6 B6)) (red A7 B7)) (red A8 B8))
        shapeCasts_S64x8x64_S1x64x8x64 (ix4 0 o r w)
      = max9 (cand (fun c => A0 (ix3 c r w)) (fun c => B0 (ix4 o c 0 0)))
          (cand (fun c => A1 (ix3 c r w)) (fun c => B1 (ix4 o c 0 0)))
          (cand (fun c => A2 (ix3 c r w)) (fun c => B2 (ix4 o c 0 0)))
          (cand (fun c => A3 (ix3 c r w)) (fun c => B3 (ix4 o c 0 0)))
          (cand (fun c => A4 (ix3 c r w)) (fun c => B4 (ix4 o c 0 0)))
          (cand (fun c => A5 (ix3 c r w)) (fun c => B5 (ix4 o c 0 0)))
          (cand (fun c => A6 (ix3 c r w)) (fun c => B6 (ix4 o c 0 0)))
          (cand (fun c => A7 (ix3 c r w)) (fun c => B7 (ix4 o c 0 0)))
          (cand (fun c => A8 (ix3 c r w)) (fun c => B8 (ix4 o c 0 0))) := by
  refine (shapeCast_apply _ shapeCasts_S64x8x64_S1x64x8x64 (ix4 0 o r w) (ix3 o r w) ?_).trans ?_
  · rw [Shape.rowMajor_val_three, Shape.rowMajor_val_four]
    show (o.val * 8 + r.val) * 64 + w.val = ((0 * 64 + o.val) * 8 + r.val) * 64 + w.val
    omega
  refine (max9_apply _ _ _ _ _ _ _ _ _ _ (ix3 o r w) hinit).trans ?_
  exact max9_congr (kernel_tap _ _ _ _ _ _ _ _ _ _ _) (kernel_tap _ _ _ _ _ _ _ _ _ _ _) (kernel_tap _ _ _ _ _ _ _ _ _ _ _)
    (kernel_tap _ _ _ _ _ _ _ _ _ _ _) (kernel_tap _ _ _ _ _ _ _ _ _ _ _) (kernel_tap _ _ _ _ _ _ _ _ _ _ _)
    (kernel_tap _ _ _ _ _ _ _ _ _ _ _) (kernel_tap _ _ _ _ _ _ _ _ _ _ _) (kernel_tap _ _ _ _ _ _ _ _ _ _ _)

/-- A TILE AS A BLOCK: a value P that at (0, o, r, w) is the taps at row offset e is, through the rectangle at row
    offset e, the block of `blockOf`: the offset moves into the row. -/
theorem tile_block (X0 : Vec Ideal S1x64x66x66 .f32) (X1 : Vec Ideal S64x64x3x3 .f32) (e : Nat)
    (inb : ∀ a, (![0, 0, e, 0] : Fin 4 → Nat) a + S1x64x8x64.size a ≤ S1x64x64x64.size a) (P : Vec Ideal S1x64x8x64 .f32)
    (hP : ∀ (o : Fin 64) (r : Fin 8) (w : Fin 64), P (ix4 0 o r w) = taps X0 X1 0 o.val e r.val w.val)
    (x : S1x64x8x64.Idx) :
    P x = blockOf X0 X1 ((Rect.unit (s := S1x64x64x64) ![0, 0, e, 0] S1x64x8x64.size inb).emb x) := by
  obtain ⟨z, o, r, w, rfl⟩ : ∃ (z : Fin 1) (o : Fin 64) (r : Fin 8) (w : Fin 64), x = ix4 z o r w :=
    ⟨x 0, x 1, x 2, x 3, eq_ix4 x⟩
  obtain rfl : z = 0 := Subsingleton.elim z 0
  refine (hP o r w).trans ((taps_shift X0 X1 0 o.val e r.val w.val).trans ?_)
  exact taps_congr_args X0 X1 0 0 (by show o.val = 0 + 1 * o.val; omega) (by show e + r.val = e + 1 * r.val; omega)
    (by show w.val = 0 + 1 * w.val; omega)

/-! ## The eight tiles of the body

Each is `tile_apply` at the body's slices; a slice of the image viewed [64, 66, 66] at offsets (0, 8n + i, j) read at
(c, r, w) is the staged image at (0, c, 8n + i + r, j + w), a slice of the filter at offsets (0, 0, i, j) read at
(o, c, 0, 0) is the filter at (o, c, i, j). -/

/-- Tile 0, rows 0 to 7. -/
theorem tile_0 (X0 : Vec Ideal S1x64x66x66 .f32) (X1 : Vec Ideal S64x64x3x3 .f32) (o : Fin 64) (r : Fin 8) (w : Fin 64) :
    k0_pay6 (F := Ideal) (k0_pay2 X0) X1 (k0_pay3 X0 X1) (k0_pay4 X0) (k0_pay5 X1) (ix4 0 o r w)
      = taps X0 X1 0 o.val 0 r.val w.val := by
  simp only [k0_pay6, k0_pay2, k0_pay3, k0_pay4, k0_pay5]
  refine (tile_apply _ _ _ _ _ _ _ _ _ _ _ _ _ _ _ _ _ _ _ o r w rfl).trans ?_
  unfold taps
  refine max9_congr ?_ ?_ ?_ ?_ ?_ ?_ ?_ ?_ ?_ <;>
    exact cand_congr (fun c => slice3_drop_at X0 _ _ _ (ix3 c r w)) (fun c => slice4_at _ X1 _ (ix4 o c 0 0))

/-- Tile 1, rows 8 to 15. -/
theorem tile_1 (X0 : Vec Ideal S1x64x66x66 .f32) (X1 : Vec Ideal S64x64x3x3 .f32) (o : Fin 64) (r : Fin 8) (w : Fin 64) :
    k0_pay10 (F := Ideal) (k0_pay2 X0) X1 (k0_pay7 (k0_pay2 X0) X1) (k0_pay8 (k0_pay2 X0)) (k0_pay9 X1) (ix4 0 o r w)
      = taps X0 X1 0 o.val 8 r.val w.val := by
  simp only [k0_pay10, k0_pay2, k0_pay7, k0_pay8, k0_pay9]
  refine (tile_apply _ _ _ _ _ _ _ _ _ _ _ _ _ _ _ _ _ _ _ o r w rfl).trans ?_
  unfold taps
  refine max9_congr ?_ ?_ ?_ ?_ ?_ ?_ ?_ ?_ ?_ <;>
    exact cand_congr (fun c => slice3_drop_at X0 _ _ _ (ix3 c r w)) (fun c => slice4_at _ X1 _ (ix4 o c 0 0))

/-- Tile 2, rows 16 to 23. -/
theorem tile_2 (X0 : Vec Ideal S1x64x66x66 .f32) (X1 : Vec Ideal S64x64x3x3 .f32) (o : Fin 64) (r : Fin 8) (w : Fin 64) :
    k0_pay16 (F := Ideal) (k0_pay2 X0) X1 (k0_pay13 (k0_pay2 X0) X1 (k0_pay11 (F := Ideal)) (k0_pay12 (k0_pay2 X0) X1))
        (k0_pay14 (k0_pay2 X0)) (k0_pay15 X1) (ix4 0 o r w)
      = taps X0 X1 0 o.val 16 r.val w.val := by
  simp only [k0_pay16, k0_pay2, k0_pay13, k0_pay11, k0_pay12, k0_pay14, k0_pay15]
  refine (tile_apply _ _ _ _ _ _ _ _ _ _ _ _ _ _ _ _ _ _ _ o r w rfl).trans ?_
  unfold taps
  refine max9_congr ?_ ?_ ?_ ?_ ?_ ?_ ?_ ?_ ?_ <;>
    exact cand_congr (fun c => slice3_drop_at X0 _ _ _ (ix3 c r w)) (fun c => slice4_at _ X1 _ (ix4 o c 0 0))

/-- Tile 3, rows 24 to 31. -/
theorem tile_3 (X0 : Vec Ideal S1x64x66x66 .f32) (X1 : Vec Ideal S64x64x3x3 .f32) (o : Fin 64) (r : Fin 8) (w : Fin 64) :
    k0_pay22 (F := Ideal) (k0_pay2 X0) X1
        (k0_pay19 (k0_pay2 X0) X1 (k0_pay17 (k0_pay2 X0) X1) (k0_pay18 (k0_pay2 X0) X1))
        (k0_pay20 (k0_pay2 X0)) (k0_pay21 X1) (ix4 0 o r w)
      = taps X0 X1 0 o.val 24 r.val w.val := by
  simp only [k0_pay22, k0_pay2, k0_pay19, k0_pay17, k0_pay18, k0_pay20, k0_pay21]
  refine (tile_apply _ _ _ _ _ _ _ _ _ _ _ _ _ _ _ _ _ _ _ o r w rfl).trans ?_
  unfold taps
  refine max9_congr ?_ ?_ ?_ ?_ ?_ ?_ ?_ ?_ ?_ <;>
    exact cand_congr (fun c => slice3_drop_at X0 _ _ _ (ix3 c r w)) (fun c => slice4_at _ X1 _ (ix4 o c 0 0))

/-- Tile 4, rows 32 to 39. -/
theorem tile_4 (X0 : Vec Ideal S1x64x66x66 .f32) (X1 : Vec Ideal S64x64x3x3 .f32) (o : Fin 64) (r : Fin 8) (w : Fin 64) :
    k0_pay28 (F := Ideal) (k0_pay25 (k0_pay2 X0) X1 (k0_pay23 (k0_pay2 X0) X1) (k0_pay24 (k0_pay2 X0) X1))
        (k0_pay26 (k0_pay2 X0)) (k0_pay27 X1) (ix4 0 o r w)
      = taps X0 X1 0 o.val 32 r.val w.val := by
  simp only [k0_pay28, k0_pay2, k0_pay25, k0_pay23, k0_pay24, k0_pay26, k0_pay27]
  refine (tile_apply _ _ _ _ _ _ _ _ _ _ _ _ _ _ _ _ _ _ _ o r w rfl).trans ?_
  unfold taps
  refine max9_congr ?_ ?_ ?_ ?_ ?_ ?_ ?_ ?_ ?_ <;>
    exact cand_congr (fun c => slice3_drop_at X0 _ _ _ (ix3 c r w)) (fun c => slice4_at _ X1 _ (ix4 o c 0 0))

/-- Tile 5, rows 40 to 47. -/
theorem tile_5 (X0 : Vec Ideal S1x64x66x66 .f32) (X1 : Vec Ideal S64x64x3x3 .f32) (o : Fin 64) (r : Fin 8) (w : Fin 64) :
    k0_pay32 (F := Ideal) (k0_pay31 (k0_pay2 X0) X1 (k0_pay29 (k0_pay2 X0) X1) (k0_pay30 (k0_pay2 X0) X1)) (ix4 0 o r w)
      = taps X0 X1 0 o.val 40 r.val w.val := by
  simp only [k0_pay32, k0_pay2, k0_pay31, k0_pay29, k0_pay30]
  refine (tile_apply _ _ _ _ _ _ _ _ _ _ _ _ _ _ _ _ _ _ _ o r w rfl).trans ?_
  unfold taps
  refine max9_congr ?_ ?_ ?_ ?_ ?_ ?_ ?_ ?_ ?_ <;>
    exact cand_congr (fun c => slice3_drop_at X0 _ _ _ (ix3 c r w)) (fun c => slice4_at _ X1 _ (ix4 o c 0 0))

/-- Tile 6, rows 48 to 55. -/
theorem tile_6 (X0 : Vec Ideal S1x64x66x66 .f32) (X1 : Vec Ideal S64x64x3x3 .f32) (o : Fin 64) (r : Fin 8) (w : Fin 64) :
    k0_pay35 (F := Ideal) (k0_pay2 X0) X1 (k0_pay33 (k0_pay2 X0) X1) (k0_pay34 (k0_pay2 X0) X1) (ix4 0 o r w)
      = taps X0 X1 0 o.val 48 r.val w.val := by
  simp only [k0_pay35, k0_pay2, k0_pay33, k0_pay34]
  refine (tile_apply _ _ _ _ _ _ _ _ _ _ _ _ _ _ _ _ _ _ _ o r w rfl).trans ?_
  unfold taps
  refine max9_congr ?_ ?_ ?_ ?_ ?_ ?_ ?_ ?_ ?_ <;>
    exact cand_congr (fun c => slice3_drop_at X0 _ _ _ (ix3 c r w)) (fun c => slice4_at _ X1 _ (ix4 o c 0 0))

/-- Tile 7, rows 56 to 63. -/
theorem tile_7 (X0 : Vec Ideal S1x64x66x66 .f32) (X1 : Vec Ideal S64x64x3x3 .f32) (o : Fin 64) (r : Fin 8) (w : Fin 64) :
    k0_pay1 (F := Ideal) (k0_pay2 X0) X1
        (k0_pay39 (k0_pay2 X0) X1 (k0_pay36 (F := Ideal)) (k0_pay37 (k0_pay2 X0)) (k0_pay38 X1))
        (k0_pay40 (k0_pay2 X0) X1) (ix4 0 o r w)
      = taps X0 X1 0 o.val 56 r.val w.val := by
  simp only [k0_pay1, k0_pay2, k0_pay39, k0_pay36, k0_pay37, k0_pay38, k0_pay40]
  refine (tile_apply _ _ _ _ _ _ _ _ _ _ _ _ _ _ _ _ _ _ _ o r w rfl).trans ?_
  unfold taps
  refine max9_congr ?_ ?_ ?_ ?_ ?_ ?_ ?_ ?_ ?_ <;>
    exact cand_congr (fun c => slice3_drop_at X0 _ _ _ (ix3 c r w)) (fun c => slice4_at _ X1 _ (ix4 o c 0 0))

/-! ## The buffer after the eight stores -/

/-- The zero offsets of the two whole-buffer loads. -/
theorem hz4 : (![0, 0, 0, 0] : Fin 4 → Nat) = fun _ => 0 := funext fun a => by fin_cases a <;> rfl

/-- THE BODY'S RESULT: after the eight stores the output buffer holds `blockOf` of the two input buffers — every index
    lies in one tile's rectangle, and each tile is that rectangle's block of `blockOf`. -/
theorem out_eq (x0 : Vec Ideal S1x64x66x66 .f32) (x1 : Vec Ideal S64x64x3x3 .f32) : out0_2 x0 x1 = blockOf x0 x1 := by
  have e0 : View.ld x0 r0_0 = x0 := View.ld_unit_zero hz4 _ x0
  have e1 : View.ld x1 r0_1 = x1 := View.ld_unit_zero hz4 _ x1
  funext y
  unfold out0_2
  refine (View.canon_apply_of_pieces (blockOf (View.ld x0 r0_0) (View.ld x1 r0_1)) _ ?_ y (cover0_2 _ _ _ _ _ _ _ _ y)).trans ?_
  · intro p hp
    simp only [List.mem_cons, List.not_mem_nil, or_false] at hp
    rcases hp with rfl | rfl | rfl | rfl | rfl | rfl | rfl | rfl
    · exact tile_block _ _ 56 inb_S1x64x64x64_S1x64x8x64_0_0_56_0 _ (tile_7 _ _)
    · exact tile_block _ _ 48 inb_S1x64x64x64_S1x64x8x64_0_0_48_0 _ (tile_6 _ _)
    · exact tile_block _ _ 40 inb_S1x64x64x64_S1x64x8x64_0_0_40_0 _ (tile_5 _ _)
    · exact tile_block _ _ 32 inb_S1x64x64x64_S1x64x8x64_0_0_32_0 _ (tile_4 _ _)
    · exact tile_block _ _ 24 inb_S1x64x64x64_S1x64x8x64_0_0_24_0 _ (tile_3 _ _)
    · exact tile_block _ _ 16 inb_S1x64x64x64_S1x64x8x64_0_0_16_0 _ (tile_2 _ _)
    · exact tile_block _ _ 8 inb_S1x64x64x64_S1x64x8x64_0_0_8_0 _ (tile_1 _ _)
    · exact tile_block _ _ 0 inb_S1x64x64x64_S1x64x8x64_0_0_0_0 _ (tile_0 _ _)
  · rw [e0, e1]

end Cert.KernelIdeal.Tiles

end
-- ==== Proof.KernelValue.lean ====
/-
  The kernel's result array is the max-plus convolution of the padded input it was given.

  The grid has one point per image: point t stages image t of the padded input (window 0: block [1, 64, 66, 66] at
  block index (t, 0, 0, 0)) and the whole filter (window 1), and writes back image t of the result (window 2: block
  [1, 64, 64, 64] at (t, 0, 0, 0)).  The body leaves `blockOf` of the two staged blocks in the output buffer
  (Tiles.lean), and the staged image's entry (0, c, y, x) is the padded array's entry (t, c, y, x), so what point t writes
  back is block t of the convolution of the whole arrays; the eight blocks cover the result array.
-/
import proofs.«170946_j15960098472407_1_alg».proof.Proof.Tiles
import proofs.«170946_j15960098472407_1_alg».proof.Proof.Gen.KernelIdeal.Value

set_option maxRecDepth 16384

noncomputable section

namespace Cert.KernelIdeal.ConvValue

open Cert.KernelIdeal Cert.KernelIdeal.Gen Cert.KernelIdeal.Tiles Idealize.ShloMosaic Idealize.ShloMosaic.TcCoe
  Idealize.ShloMosaic.ValueIdx Idealize.SL.Sem Cert.MaxPlus
open Idealize.ShloMosaic.Pipeline (Dat)

variable (m : (ℓ : Loc nD τ sig) → Buf (Elt Ideal) ℓ) (ρ : Dev nD → PrngReg)

/-- The padded image as the region finds it. -/
abbrev xp (c : Dev nD) : Vec Ideal S8x64x66x66 .f32 := V m c main_v0
/-- The filter as the region finds it. -/
abbrev kk (c : Dev nD) : Vec Ideal S64x64x3x3 .f32 := V m c main_arg1

/-- The printed index maps over the grid: the image windows are at block (t, 0, 0, 0), the filter's at the origin. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

theorem t_lt (t : Fin cfg0.N) : t.val < 8 := by
  have h := t.isLt
  have hN : cfg0.N = 8 := N_0
  omega

/-- The staged image at point t: entry (0, a, y, x) is the padded array's entry (t, a, y, x). -/
theorem at4_image (c : Dev nD) (t : Fin cfg0.N) (a y x : Nat) :
    at4 (iblk m c 0 t) (0 + 0) a y x = at4 (xp m c) (0 + t.val) a y x := by
  have ht := t_lt t
  obtain ⟨e0, e1, e2, e3, -⟩ := idx_facts t
  unfold at4
  by_cases h : a < 64 ∧ y < 66 ∧ x < 66
  · rw [dif_pos ⟨by omega, h⟩, dif_pos ⟨by omega, h⟩]
    refine congrArg (V m c main_v0) (funext fun d => Fin.ext ?_)
    match d with
    | ⟨0, _⟩ => show win0_0.index t (0 : Fin 4) * 1 + 1 * (0 + 0) = 0 + t.val; omega
    | ⟨1, _⟩ => show win0_0.index t (1 : Fin 4) * 64 + 1 * a = a; omega
    | ⟨2, _⟩ => show win0_0.index t (2 : Fin 4) * 66 + 1 * y = y; omega
    | ⟨3, _⟩ => show win0_0.index t (3 : Fin 4) * 66 + 1 * x = x; omega
  · rw [dif_neg (fun hh => h hh.2), dif_neg (fun hh => h hh.2)]

/-- The staged filter at any point is the filter. -/
theorem at4_filter (c : Dev nD) (t : Fin cfg0.N) (a b i j : Nat) :
    at4 (iblk m c 1 t) a b i j = at4 (kk m c) a b i j := by
  obtain ⟨-, -, -, -, e0, e1, e2, e3, -⟩ := idx_facts t
  unfold at4
  by_cases h : a < 64 ∧ b < 64 ∧ i < 3 ∧ j < 3
  · rw [dif_pos h, dif_pos h]
    refine congrArg (V m c main_arg1) (funext fun d => Fin.ext ?_)
    match d with
    | ⟨0, _⟩ => show win0_1.index t (0 : Fin 4) * 64 + 1 * a = a; omega
    | ⟨1, _⟩ => show win0_1.index t (1 : Fin 4) * 64 + 1 * b = b; omega
    | ⟨2, _⟩ => show win0_1.index t (2 : Fin 4) * 3 + 1 * i = i; omega
    | ⟨3, _⟩ => show win0_1.index t (3 : Fin 4) * 3 + 1 * j = j; omega
  · rw [dif_neg h, dif_neg h]

/-- WHAT POINT t WRITES BACK is block t of the convolution of the padded array with the filter. -/
theorem flushed_eq (c : Dev nD) (t : Fin cfg0.N) :
    (dats m 0 c).flushed 2 t = ((cfg0.win 2).blk t).view.read (Elt Ideal) (conv (xp m c) (kk m c)) := by
  rw [Value.flushed2, out_eq]
  obtain ⟨-, -, -, -, -, -, -, -, e0, e1, e2, e3⟩ := idx_facts t
  funext j
  show blockOf (iblk m c 0 t) (iblk m c 1 t) j = conv (xp m c) (kk m c) (((cfg0.win 2).blk t).view.emb j)
  have hj0 : (j 0).val < 1 := (j 0).isLt
  unfold blockOf conv
  refine (taps_congr_arrays (iblk m c 0 t) (xp m c) (iblk m c 1 t) (kk m c) 0 t.val (j 1).val 0 (j 2).val (j 3).val
    (fun a y x => at4_image m c t a y x) (fun a b i' j' => at4_filter m c t a b i' j')).trans ?_
  have hb : t.val = ((((cfg0.win 2).blk t).view.emb j) 0).val := by
    show t.val = win0_2.index t (0 : Fin 4) * 1 + 1 * (j 0).val; omega
  rw [← hb]
  exact taps_congr_args _ _ _ 0
    (by show (j 1).val = win0_2.index t (1 : Fin 4) * 64 + 1 * (j 1).val; omega)
    (by show (j 2).val = win0_2.index t (2 : Fin 4) * 64 + 1 * (j 2).val; omega)
    (by show (j 3).val = win0_2.index t (3 : Fin 4) * 64 + 1 * (j 3).val; omega)

/-- An index of the result array is in point t's block iff each coordinate is in the block's range on its axis. -/
theorem mem_blk (t : Fin cfg0.N) (i : S8x64x64x64.Idx) :
    i ∈ ((cfg0.win 2).blk t).view.set ↔ ∀ a : Fin 4, win0_2.index t a * S1x64x64x64.size a ≤ (i a).val
      ∧ (i a).val < win0_2.index t a * S1x64x64x64.size a + S1x64x64x64.size a := by
  show i ∈ ((View.whole main_v1).slice (win0_2.rect t)).set ↔ _
  rw [View.set_slice_whole, Rect.mem_set_unit]
  exact Iff.rfl

/-- Every index of the result array is in the block of the point of its image. -/
theorem cover (i : S8x64x64x64.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 64 := (i 2).isLt
  have hi3 : (i 3).val < 64 := (i 3).isLt
  have hN : cfg0.N = 8 := N_0
  refine ⟨⟨(i 0).val, by omega⟩, flush0_2 _, ?_⟩
  rw [mem_blk]
  obtain ⟨-, -, -, -, -, -, -, -, e0, e1, e2, e3⟩ := idx_facts ⟨(i 0).val, by omega⟩
  intro a
  match a with
  | ⟨0, _⟩ =>
    show win0_2.index ⟨(i 0).val, _⟩ (0 : Fin 4) * 1 ≤ (i 0).val ∧ (i 0).val < win0_2.index ⟨(i 0).val, _⟩ (0 : Fin 4) * 1 + 1
    simp only at e0; omega
  | ⟨1, _⟩ =>
    show win0_2.index ⟨(i 0).val, _⟩ (1 : Fin 4) * 64 ≤ (i 1).val ∧ (i 1).val < win0_2.index ⟨(i 0).val, _⟩ (1 : Fin 4) * 64 + 64
    omega
  | ⟨2, _⟩ =>
    show win0_2.index ⟨(i 0).val, _⟩ (2 : Fin 4) * 64 ≤ (i 2).val ∧ (i 2).val < win0_2.index ⟨(i 0).val, _⟩ (2 : Fin 4) * 64 + 64
    omega
  | ⟨3, _⟩ =>
    show win0_2.index ⟨(i 0).val, _⟩ (3 : Fin 4) * 64 ≤ (i 3).val ∧ (i 3).val < win0_2.index ⟨(i 0).val, _⟩ (3 : Fin 4) * 64 + 64
    omega

/-- THE RESULT ARRAY after the run is the convolution of the padded array with the filter, as the region found them. -/
theorem final (c : Dev nD) : (dats m 0 c).arrAt 2 cfg0.N = conv (xp m c) (kk m c) :=
  (dats m 0 c).arrAt_eq_of_cover 2 (conv (xp m c) (kk m c)) (fun t _ => flushed_eq m c t) (cover)

/-- The input padded by one row and one column of −∞ on each side of the two image axes, as the kernel's program
    builds it before the call. -/
abbrev padded (x : Vec Ideal S8x64x64x64 .f32) : Vec Ideal S8x64x66x66 .f32 :=
  pad S8x64x66x66 ![0, 0, 1, 1] ![0, 0, 1, 1] ![0, 0, 0, 0] x (id (constant (F := Ideal) S_ .f32 0xFF800000#32))
    pads_S8x64x64x64_S8x64x66x66_000_000_110_110 h_S_

/-- The region finds the padded argument in the first window's array. -/
theorem xp_eq (c : Dev nD) : xp m c = padded (m ((c : Thread nD τ).loc main_arg0)) := by
  show (V m c main_v0 : S8x64x66x66.Idx → EReal) = _
  dsimp only [V]
  simp only [hostOps0, hostOps0_1, List.flatten_cons, List.flatten_nil, List.append_nil, List.cons_append, List.nil_append]
  after_results
  rfl

/-- THE RUN, READ: the result array ends at the convolution of the padded first argument with the second, the
    arguments unchanged. -/
theorem run : θ_run defs (onTc (τ := τ) (main (F := Ideal))) ⟨m, fun _ => 0, ρ⟩ fun r => ∀ c : Dev nD,
      r.2.mem ((c : Thread nD τ).loc main_v1)
        = conv (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by rw [(h c).1, final, xp_eq]; exact congrArg _ (V_main_arg1 m c), (h c).2⟩)
    (Value.run_blocks m ρ)

end Cert.KernelIdeal.ConvValue

end
-- ==== Proof.RefValue.lean ====
/-
  The reference's result is the max-plus convolution of its padded input.

  The reference pads the input with −∞ and then, tap by tap in the order (0,0), (0,1), …, (2,2), slices the padded
  image and the filter, broadcasts both to [8, 64, 64, 64, 64] (image, output channel, channel, row, column), adds them,
  takes the maximum over the channel axis from −∞, and keeps the running maximum, started from an array of −∞.  Read at
  (b, o, h, w) the nine reductions are the nine taps of the specification at row offset 0, the slices' offsets
  being the taps' shifts.
-/
import proofs.«170946_j15960098472407_1_alg».proof.Proof.Taps
import proofs.«170946_j15960098472407_1_alg».proof.Proof.Gen.ReferenceIdeal.Run

set_option maxRecDepth 16384

noncomputable section

namespace Cert.ReferenceIdeal.RefValue

open Cert.ReferenceIdeal Cert.ReferenceIdeal.Gen Cert.ReferenceIdeal.Value Idealize.ShloMosaic Idealize.ShloMosaic.TcCoe
  Idealize.ShloMosaic.ValueIdx Idealize.SL.Sem Cert.MaxPlus

/-- The input padded by one row and one column of −∞ on each side of the two image axes, as the reference builds it. -/
abbrev padded (x : Vec Ideal S8x64x64x64 .f32) : Vec Ideal S8x64x66x66 .f32 :=
  pad S8x64x66x66 ![0, 0, 1, 1] ![0, 0, 1, 1] ![0, 0, 0, 0] x (id (constant (F := Ideal) S_ .f32 0xFF800000#32))
    pads_S8x64x64x64_S8x64x66x66_000_000_110_110 h_S_

/-- The reference run's result term, at the ideal values, is the convolution of the padded input with the filter. -/
theorem result_eq (m : (ℓ : Loc nD τ sig) → Buf (Elt Ideal) ℓ) (c : Dev nD) :
    (res_main_v100 (F := Ideal) m c : S8x64x64x64.Idx → EReal)
      = conv (padded (m ((c.tc : Thread nD τ).loc main_arg0))) (m ((c.tc : Thread nD τ).loc main_arg1)) := by
  funext i
  unfold res_main_v100
  refine (max9_apply _ _ _ _ _ _ _ _ _ _ i rfl).trans ?_
  unfold conv taps
  refine max9_congr ?_ ?_ ?_ ?_ ?_ ?_ ?_ ?_ ?_ <;>
    exact (host_tap _ _ _ _ _ _ _ _ _ _ i).trans
      (cand_congr (fun c => slice4_at _ _ _ (ix4 (i 0) c (i 2) (i 3))) (fun c => slice4_at _ _ _ (ix4 (i 1) c 0 0)))

end Cert.ReferenceIdeal.RefValue

end
-- ==== Proof.lean ====
/-
  A max-plus (tropical) 3×3 convolution, stride 1, over f32[8, 64, 64, 64] with a filter f32[64, 64, 3, 3]: the input is
  padded with one row and one column of −∞ on each side of the two image axes, and
      out[b, o, h, w] = max over taps (i, j) and channels c of  padded[b, c, h + i, w + j] + filter[o, c, i, j].

  The kernel pads on the host, then runs one grid point per image: it stages the padded image and the whole filter
  and computes the image's result in eight tiles of eight rows, each tile the running maximum from −∞ over the nine
  taps of a channel-axis maximum of a broadcast sum.  The reference pads the same way and does the nine taps on whole
  arrays, in the same order.  At the ideal values both results are ONE function of the arguments
  (Proof/MaxPlus.lean `conv`): no law of the extended reals is needed beyond reading both channel maxima as the
  same fold, so the precondition is not used.

  The three frames are the generated ones (the reference's its generated run with the result dropped); the ideal pass
  rewrote nothing, so `preserves` is trivial; `algebraic` sets the kernel's run, read as `conv` of the padded argument
  (Proof/Tiles.lean, Proof/KernelValue.lean), beside the reference's (Proof/RefValue.lean).
-/
import proofs.«170946_j15960098472407_1_alg».proof.Defs
import proofs.«170946_j15960098472407_1_alg».proof.Proof.Gen.Kernel
import proofs.«170946_j15960098472407_1_alg».proof.Proof.Gen.Kernel.Skeleton
import proofs.«170946_j15960098472407_1_alg».proof.Proof.Gen.Kernel.Launch
import proofs.«170946_j15960098472407_1_alg».proof.Proof.Gen.Kernel.Points
import proofs.«170946_j15960098472407_1_alg».proof.Proof.Gen.Kernel.Frame
import proofs.«170946_j15960098472407_1_alg».proof.Proof.Gen.KernelIdeal
import proofs.«170946_j15960098472407_1_alg».proof.Proof.Gen.KernelIdeal.Skeleton
import proofs.«170946_j15960098472407_1_alg».proof.Proof.Gen.KernelIdeal.Launch
import proofs.«170946_j15960098472407_1_alg».proof.Proof.Gen.KernelIdeal.Points
import proofs.«170946_j15960098472407_1_alg».proof.Proof.Gen.KernelIdeal.Frame
import proofs.«170946_j15960098472407_1_alg».proof.Proof.Gen.ReferenceIdeal
import proofs.«170946_j15960098472407_1_alg».proof.Proof.Gen.Pre_finite_inputs
import proofs.«170946_j15960098472407_1_alg».proof.Proof.Gen.KernelIdeal.Value
import proofs.«170946_j15960098472407_1_alg».proof.Proof.Gen.ReferenceIdeal.Run
import proofs.«170946_j15960098472407_1_alg».proof.Proof.KernelValue
import proofs.«170946_j15960098472407_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values both programs end with the max-plus convolution of the padded first argument with the second:
    the kernel's result array tile by tile and image by image, the reference's tap by tap; the two pad alike. -/
theorem algebraic : Cert.algebraic_KernelIdeal_ReferenceIdeal := by
  intro m ρ m' ρ' _ hagree
  refine ⟨fun c => Cert.MaxPlus.conv
      (Cert.KernelIdeal.ConvValue.padded (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
